-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩
abbrev S1x600000 : Shape := ⟨2, ![1, 600000]⟩
abbrev S600000 : Shape := ⟨1, ![600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S_S_d : S_.ReducesTo [] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part2 {F : FTy → Type} [FloatOps F] (main_v27 : IVec S_ 1) (main_v31 : IVec S600000 1) (main_v33 : IVec S600000 32) (main_c_11 : IVec S_ 32) : IVec S_ 1 :=
  let main_v34 : IVec S600000 32 := broadcastInDim S600000 ![] bcast_S_S600000 main_c_11
  let main_v35 : IVec S600000 1 := cmpi .slt main_v33 main_v34
  let main_v36 : IVec S600000 1 := andi main_v31 main_v35
  let main_c_12 : IVec S_ 1 := constantI S_ 1 1#1
  let main_v37 : IVec S_ 1 := (fun x v => Host.reduce IntOp.andi x v reducesTo_S600000_S_d0 h_S_) main_v36 main_c_12
  let main_v38 : IVec S_ 1 := andi main_v27 main_v37
  main_v38

def fn_part1 {F : FTy → Type} [FloatOps F] (main_arg1 : IVec S2x600000 32) (main_arg5 : FVec F S128 .f32) (main_arg6 : FVec F S_ .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S_ .f32 := Host.absf main_arg6
  let main_cst_8 : FVec F S_ .f32 := constant S_ .f32 0x7F800000#32
  let main_v25 : IVec S_ 1 := cmpf .olt main_v24 main_cst_8
  let main_c_9 : IVec S_ 1 := constantI S_ 1 1#1
  let main_v26 : IVec S_ 1 := (fun x v => Host.reduce IntOp.andi x v reducesTo_S_S_d h_S_) main_v25 main_c_9
  let main_v27 : IVec S_ 1 := andi main_v23 main_v26
  let main_v28 : IVec S1x600000 32 := (extractStridedSlice S1x600000 ![0, 0] · slices_S2x600000_S1x600000_0_0) main_arg1
  let main_v29 : IVec S600000 32 := shapeCast S600000 main_v28 shapeCasts_S1x600000_S600000
  let main_c_10 : IVec S_ 32 := constantI S_ 32 4294917296#32
  let main_v30 : IVec S600000 32 := broadcastInDim S600000 ![] bcast_S_S600000 main_c_10
  let main_v31 : IVec S600000 1 := cmpi .sge main_v29 main_v30
  let main_v32 : IVec S1x600000 32 := (extractStridedSlice S1x600000 ![0, 0] · slices_S2x600000_S1x600000_0_0) main_arg1
  let main_v33 : IVec S600000 32 := shapeCast S600000 main_v32 shapeCasts_S1x600000_S600000
  let main_c_11 : IVec S_ 32 := constantI S_ 32 50000#32
  fn_part2 (F := F) main_v27 main_v31 main_v33 main_c_11

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) (main_arg6 : FVec F S_ .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩
abbrev S1x600000 : Shape := ⟨2, ![1, 600000]⟩
abbrev S600000 : Shape := ⟨1, ![600000]⟩
abbrev S600000x1 : Shape := ⟨2, ![600000, 1]⟩
abbrev S1 : Shape := ⟨1, ![1]⟩
abbrev S1x1 : Shape := ⟨2, ![1, 1]⟩
abbrev S600000x128 : Shape := ⟨2, ![600000, 128]⟩
abbrev S1x128 : Shape := ⟨2, ![1, 128]⟩
abbrev S5000x128 : Shape := ⟨2, ![5000, 128]⟩

abbrev nBuf : Space → Nat
  | .hbm => 42
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S_, .f32⟩
  | .hbm, ⟨7, _⟩ => ⟨S1x600000, .i32⟩
  | .hbm, ⟨8, _⟩ => ⟨S600000, .i32⟩
  | .hbm, ⟨9, _⟩ => ⟨S1x600000, .i32⟩
  | .hbm, ⟨10, _⟩ => ⟨S600000, .i32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S1, .i32⟩
  | .hbm, ⟨20, _⟩ => ⟨S_, .i32⟩
  | .hbm, ⟨21, _⟩ => ⟨S600000x1, .i32⟩
  | .hbm, ⟨22, _⟩ => ⟨S600000x1, .i1⟩
  | .hbm, ⟨23, _⟩ => ⟨S1x1, .i32⟩
  | .hbm, ⟨24, _⟩ => ⟨S600000x1, .i32⟩
  | .hbm, ⟨25, _⟩ => ⟨S600000x1, .i1⟩
  | .hbm, ⟨26, _⟩ => ⟨S600000x1, .i1⟩
  | .hbm, ⟨27, _⟩ => ⟨S_, .i1⟩
  | .hbm, ⟨28, _⟩ => ⟨S600000, .i1⟩
  | .hbm, ⟨29, _⟩ => ⟨S600000x128, .f32⟩
  | .hbm, ⟨30, _⟩ => ⟨S600000x128, .i1⟩
  | .hbm, ⟨31, _⟩ => ⟨S_, .f32⟩
  | .hbm, ⟨32, _⟩ => ⟨S600000x128, .f32⟩
  | .hbm, ⟨33, _⟩ => ⟨S600000x128, .f32⟩
  | .hbm, ⟨34, _⟩ => ⟨S_, .f32⟩
  | .hbm, ⟨35, _⟩ => ⟨S50000x128, .f32⟩
  | .hbm, ⟨36, _⟩ => ⟨S600000x1, .i32⟩
  | .hbm, ⟨37, _⟩ => ⟨S50000x128, .f32⟩
  | .hbm, ⟨38, _⟩ => ⟨S1x1, .f32⟩
  | .hbm, ⟨39, _⟩ => ⟨S1x128, .f32⟩
  | .hbm, ⟨40, _⟩ => ⟨S1x128, .f32⟩
  | .hbm, ⟨41, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S1x1, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v4 : Ref sig .tc := ⟨.hbm, 33, rfl⟩
abbrev main_cst : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  shapeCasts_S_S1x1 : S_.ShapeCasts S1x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x128 : S1x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩
abbrev S1x600000 : Shape := ⟨2, ![1, 600000]⟩
abbrev S600000 : Shape := ⟨1, ![600000]⟩
abbrev S600000x1 : Shape := ⟨2, ![600000, 1]⟩
abbrev S600000x128 : Shape := ⟨2, ![600000, 128]⟩
abbrev S1x128 : Shape := ⟨2, ![1, 128]⟩

abbrev nBuf : Space → Nat
  | .hbm => 43
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S_, .f32⟩
  | .hbm, ⟨7, _⟩ => ⟨S1x600000, .i32⟩
  | .hbm, ⟨8, _⟩ => ⟨S600000, .i32⟩
  | .hbm, ⟨9, _⟩ => ⟨S1x600000, .i32⟩
  | .hbm, ⟨10, _⟩ => ⟨S600000, .i32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S600000x128, .f32⟩
  | .hbm, ⟨20, _⟩ => ⟨S_, .f32⟩
  | .hbm, ⟨21, _⟩ => ⟨S50000x128, .f32⟩
  | .hbm, ⟨22, _⟩ => ⟨S600000x1, .i32⟩
  | .hbm, ⟨23, _⟩ => ⟨S50000x128, .f32⟩
  | .hbm, ⟨24, _⟩ => ⟨S_, .f32⟩
  | .hbm, ⟨25, _⟩ => ⟨S_, .f32⟩
  | .hbm, ⟨26, _⟩ => ⟨S50000x128, .f32⟩
  | .hbm, ⟨27, _⟩ => ⟨S50000x128, .f32⟩
  | .hbm, ⟨28, _⟩ => ⟨S50000x128, .f32⟩
  | .hbm, ⟨29, _⟩ => ⟨S50000x128, .f32⟩
  | .hbm, ⟨30, _⟩ => ⟨S1x128, .f32⟩
  | .hbm, ⟨31, _⟩ => ⟨S50000x128, .f32⟩
  | .hbm, ⟨32, _⟩ => ⟨S50000x128, .f32⟩
  | .hbm, ⟨33, _⟩ => ⟨S_, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call1_cst : Ref sig .tc := ⟨.hbm, 40, rfl⟩
abbrev main_call1_v0 : Ref sig .tc := ⟨.hbm, 41, rfl⟩
abbrev main_v27 : Ref sig .tc := ⟨.hbm, 42, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibReduceAnd.lean ====
/-
  A general fact about a reduction by `and` over one-bit words: if the initial value is `1` and every element is `1`, the
  reduction is `1` at every result index — the converse of reading an all-ones `jnp.all` back element by element.
-/
import Idealize.ShloMosaic.PureOps.Reduce

namespace Idealize.ShloMosaic

/-- A left fold by `and` from `1` over words that are all `1` stays `1`. -/
theorem IntOp.foldl_andi_of_all {ι : Type} (f : ι → BitVec 1) (hf : ∀ n, f n = 1#1) (l : List ι) :
    l.foldl (fun r n => IntOp.andi r (f n)) 1#1 = 1#1 := by
  induction l with
  | nil => rfl
  | cons a l ih =>
    rw [List.foldl_cons, hf a, show IntOp.andi 1#1 1#1 = 1#1 from by decide]
    exact ih

/-- A `stablehlo.reduce` by `and`, from an initial value that is `1`, of an array whose elements are all `1`, is `1`
    at every result index. -/
theorem Host.reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact IntOp.foldl_andi_of_all x hx _

end Idealize.ShloMosaic
-- ==== Proof.Edges.lean ====
/-
  The host operations before the kernel's region, named.

  From the edge list the program takes the source row and the destination row; wraps a negative source by `+50000`
  (`wrapped`); gathers row `wrapped e` of `x` for every edge (`gathered`) and, where the wrapped index is outside
  `[0, 49999]`, replaces the gathered row by a fill value (`taken`); and adds every edge's row into row `dst e` of a zero
  array (`scattered`). The region finds that array in its second window, and `ε` and the two biases reshaped to `[1, 1]`
  and `[1, 128]` in three others.

  When every source lies in `[-50000, 50000)` the wrapped index lies in `[0, 49999]`, so the range test is one at every
  edge and the fill value is never taken: `taken = gathered`.
-/
import proofs.«403795_j5059471475173_2_alg».proof.Proof.Gen.KernelIdeal.Frame
import proofs.«403795_j5059471475173_2_alg».proof.Proof.LibReduceAnd
import Idealize.ShloMosaic.Lib.StableHlo.Run
import Idealize.ShloMosaic.Lib.ValueIdx
import Idealize.ShloMosaic.Lib.Pipeline.Value
import Idealize.ShloMosaic.Lib.Affine

noncomputable section

namespace Cert.KernelIdeal.Edges

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-! ## The operations -/

/-- The source node of every edge: the first row of the edge list. -/
def srcRow (e : IVec S2x600000 32) : IVec S600000 32 :=
  shapeCast S600000 (extractStridedSlice S1x600000 ![0, 0] e slices_S2x600000_S1x600000_0_0) shapeCasts_S1x600000_S600000

/-- The destination node of every edge: the second row. -/
def dstRow (e : IVec S2x600000 32) : IVec S600000 32 :=
  shapeCast S600000 (extractStridedSlice S1x600000 ![1, 0] e slices_S2x600000_S1x600000_1_0) shapeCasts_S1x600000_S600000

/-- A negative source counts from the end: `src + 50000` where `src < 0`, else `src`. -/
def wrapped (e : IVec S2x600000 32) : IVec S600000 32 :=
  select (cmpi .slt (srcRow e) (broadcastInDim S600000 ![] bcast_S_S600000 (constantI S_ 32 0#32)))
    (addi (srcRow e) (broadcastInDim S600000 ![] bcast_S_S600000 (constantI S_ 32 50000#32))) (srcRow e)

/-- The gather's start indices: the wrapped sources as a column. -/
def startIdx (e : IVec S2x600000 32) : IVec S600000x1 32 :=
  broadcastInDim S600000x1 ![0] bcast_S600000_S600000x1_0 (wrapped e)

/-- The range test of every edge: `0 ≤ wrapped` and `wrapped ≤ 49999`. -/
def inRange (e : IVec S2x600000 32) : IVec S600000 1 :=
  Host.reduce IntOp.andi
    (andi (cmpi .sge (startIdx e) (broadcastInDim S600000x1 ![] bcast_S_S600000x1 (constantI S_ 32 0#32)))
      (cmpi .sle (startIdx e) (broadcastInDim S600000x1 ![0, 1] bcast_S1x1_S600000x1_0_1
        (broadcastInDim S1x1 ![1] bcast_S1_S1x1_1 (constantI S1 32 49999#32)))))
    (constantI S_ 1 1#1) reducesTo_S600000x1_S600000_d1 h_S_

/-- Every edge's source row of `x`. -/
def gathered (x : FVec F S50000x128 .f32) (e : IVec S2x600000 32) : FVec F S600000x128 .f32 :=
  Host.gather gather_S50000x128_S600000x1_S600000x128_1_0_n_n_0_1_1128 x (startIdx e)

/-- The gathered rows, with a fill value where the range test fails. -/
def taken (x : FVec F S50000x128 .f32) (e : IVec S2x600000 32) : FVec F S600000x128 .f32 :=
  select (broadcastInDim S600000x128 ![0] bcast_S600000_S600000x128_0 (inRange e)) (gathered x e)
    (broadcastInDim S600000x128 ![] bcast_S_S600000x128 (constant S_ .f32 0x7FC00000#32))

/-- Every edge's row `u e` added into row `dst e` of a zero array. -/
def scattered (u : FVec F S600000x128 .f32) (e : IVec S2x600000 32) : FVec F S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 (dstRow e)) u

/-! ## What the region finds -/

variable (m : (ℓ : Loc nD τ sig) → Buf (Elt F) ℓ)

set_option maxHeartbeats 4000000 in
/-- The second window's array is the scattered sum of the taken rows. -/
theorem V_agg (c : Dev nD) : (V m c main_v7 : S50000x128.Idx → Elt F .f32)
    = scattered (taken (m ((c : Thread nD τ).loc main_arg0)) (m ((c : Thread nD τ).loc main_arg1))) (m ((c : Thread nD τ).loc main_arg1)) := by
  dsimp only [V]
  simp only [hostOps0, hostOps0_1, hostOps0_2, List.flatten_cons, List.flatten_nil, List.append_nil, List.cons_append,
    List.nil_append]
  after_results_simp
  simp only [TRef.ofBuf, TRef.toBuf, cast_eq]
  unfold scattered taken gathered inRange startIdx wrapped dstRow srcRow
  rfl

set_option maxHeartbeats 2000000 in
/-- The third window's array is `ε` as a `[1, 1]` block. -/
theorem V_eps (c : Dev nD) : (V m c main_v8 : S1x1.Idx → Elt F .f32)
    = shapeCast S1x1 (m ((c : Thread nD τ).loc main_arg6)) shapeCasts_S_S1x1 := by
  dsimp only [V]
  simp only [hostOps0, hostOps0_1, hostOps0_2, List.flatten_cons, List.flatten_nil, List.append_nil, List.cons_append,
    List.nil_append]
  after_results_simp
  rfl

set_option maxHeartbeats 2000000 in
/-- The fifth window's array is the first bias as a `[1, 128]` row. -/
theorem V_b1 (c : Dev nD) : (V m c main_v9 : S1x128.Idx → Elt F .f32)
    = shapeCast S1x128 (m ((c : Thread nD τ).loc main_arg3)) shapeCasts_S128_S1x128 := by
  dsimp only [V]
  simp only [hostOps0, hostOps0_1, hostOps0_2, List.flatten_cons, List.flatten_nil, List.append_nil, List.cons_append,
    List.nil_append]
  after_results_simp
  rfl

set_option maxHeartbeats 2000000 in
/-- The seventh window's array is the second bias as a `[1, 128]` row. -/
theorem V_b2 (c : Dev nD) : (V m c main_v10 : S1x128.Idx → Elt F .f32)
    = shapeCast S1x128 (m ((c : Thread nD τ).loc main_arg5)) shapeCasts_S128_S1x128 := by
  dsimp only [V]
  simp only [hostOps0, hostOps0_1, hostOps0_2, List.flatten_cons, List.flatten_nil, List.append_nil, List.cons_append,
    List.nil_append]
  after_results_simp
  rfl

/-! ## In range, the fill value is never taken -/

theorem bmod32 {n : Int} (h₁ : -2 ^ 31 ≤ n) (h₂ : n < 2 ^ 31) : n.bmod (2 ^ 32) = n :=
  Int.bmod_eq_of_le (by omega) (by omega)

/-- A source in `[-50000, 50000)` wraps to an index in `[0, 49999]`. -/
theorem wrapped_range (e : IVec S2x600000 32) (j : S600000.Idx)
    (h : -50000 ≤ (srcRow e j).toInt ∧ (srcRow e j).toInt < 50000) :
    0 ≤ (wrapped e j).toInt ∧ (wrapped e j).toInt ≤ 49999 := by
  have hw : wrapped e j = Scalar.select (IntOp.cmpi .slt (srcRow e j) 0#32) (IntOp.addi (srcRow e j) 50000#32) (srcRow e j) := rfl
  rw [hw]
  by_cases hc : IntOp.cmpi .slt (srcRow e j) 0#32 = 1#1
  · rw [hc, select_one]
    have hneg : (srcRow e j).toInt < 0 := by
      have := IntOp.cmpi_slt.1 hc
      rwa [show (0#32 : BitVec 32).toInt = 0 from by decide] at this
    rw [IntOp.addi, BitVec.toInt_add, show (50000#32 : BitVec 32).toInt = 50000 from by decide, bmod32 (by omega) (by omega)]
    omega
  · rw [eq_zero_of_ne_one hc, select_zero]
    have hnn : ¬ (srcRow e j).toInt < 0 := fun hlt =>
      hc (IntOp.cmpi_slt.2 (by rwa [show (0#32 : BitVec 32).toInt = 0 from by decide]))
    omega

/-- So the range test is one at every edge. -/
theorem inRange_ones (e : IVec S2x600000 32)
    (h : ∀ j : S600000.Idx, -50000 ≤ (srcRow e j).toInt ∧ (srcRow e j).toInt < 50000) :
    inRange e = fun _ => 1#1 := by
  funext j
  unfold inRange
  refine Host.reduce_andi_of_all _ _ _ _ j rfl fun i => ?_
  have hs : startIdx e i = wrapped e (ix1 (i 0)) := by
    unfold startIdx
    exact broadcastInDim_apply _ bcast_S600000_S600000x1_0 (wrapped e) i (ix1 (i 0)) (fun a => match a with
      | ⟨0, _⟩ => by show (i 0).val = if (600000 : Nat) = 1 then 0 else (i 0).val; rw [if_neg (by decide)])
  obtain ⟨h0, h1⟩ := wrapped_range e (ix1 (i 0)) (h _)
  refine IntOp.andi_eq_one.2 ⟨?_, ?_⟩
  · show IntOp.cmpi .sge (startIdx e i) 0#32 = 1#1
    rw [hs]
    exact IntOp.cmpi_sge.2 (by rwa [show (0#32 : BitVec 32).toInt = 0 from by decide])
  · show IntOp.cmpi .sle (startIdx e i) 49999#32 = 1#1
    rw [hs]
    exact IntOp.cmpi_sle.2 (by rwa [show (49999#32 : BitVec 32).toInt = 49999 from by decide])

/-- And the taken rows are the gathered rows. -/
theorem taken_eq_gathered (x : FVec F S50000x128 .f32) (e : IVec S2x600000 32)
    (h : ∀ j : S600000.Idx, -50000 ≤ (srcRow e j).toInt ∧ (srcRow e j).toInt < 50000) :
    taken x e = gathered x e := by
  unfold taken
  rw [inRange_ones e h]
  funext i
  exact select_one _ _

end Cert.KernelIdeal.Edges

end
-- ==== Proof.Mlp.lean ====
/-
  The function both programs compute, stated once over the argument arrays.

  A node's row `h p = (1 + ε) · x p + agg p` (its own features scaled, plus the sum of its neighbours' features) goes
  through two dense layers with a rectifier after each: `layer h W b k = max (∑ l, h l · W l k + b k) 0`, and the result
  at `(p, q)` is `layer (layer (h p) W₁ b₁) W₂ b₂ q`. The aggregate `agg` is an argument here: how it is gathered and
  scattered from the edge list is the same operation in both programs and is never opened. The two constants are kept as
  the float words the programs print (`1.0` and `0.0`), the same words on both sides.
-/
import Idealize.ShloMosaic.PureOps.Ideal
import Idealize.ShloMosaic.Lib.ValueIdx

noncomputable section

open scoped BigOperators

namespace Cert.Mlp

open Idealize.ShloMosaic Idealize.ShloMosaic.ValueIdx

/-- The word of `1.0` and the word of `0.0`, read as extended reals. -/
abbrev one : EReal := Ideal.ofBits .f32 0x3F800000#32
abbrev zero : EReal := Ideal.ofBits .f32 0x00000000#32

/-- One dense layer with its rectifier, on one row: column `k` of `max (h · W + b) 0`. -/
def layer (h : Fin 128 → EReal) (W : (⟨2, ![128, 128]⟩ : Shape).Idx → EReal) (b : Fin 128 → EReal) (k : Fin 128) : EReal :=
  max (∑ l : Fin 128, h l * W (ix2 l k) + b k) zero

/-- A node's row before the layers: its own features scaled by `1 + ε`, plus the aggregate of its neighbours'. -/
def combine (e : EReal) (x agg : (⟨2, ![50000, 128]⟩ : Shape).Idx → EReal) (p : Fin 50000) (l : Fin 128) : EReal :=
  (one + e) * x (ix2 p l) + agg (ix2 p l)

/-- The whole result array: both layers applied to every node's combined row. -/
def mlp (e : EReal) (x agg : (⟨2, ![50000, 128]⟩ : Shape).Idx → EReal)
    (W1 : (⟨2, ![128, 128]⟩ : Shape).Idx → EReal) (b1 : Fin 128 → EReal)
    (W2 : (⟨2, ![128, 128]⟩ : Shape).Idx → EReal) (b2 : Fin 128 → EReal) :
    (⟨2, ![50000, 128]⟩ : Shape).Idx → EReal :=
  fun i => layer (layer (combine e x agg (i 0)) W1 b1) W2 b2 (i 1)

/-- Equal arguments give equal results (the congruence the assembly rewrites with). -/
theorem mlp_congr {e e' : EReal} {x x' agg agg' : (⟨2, ![50000, 128]⟩ : Shape).Idx → EReal}
    {W1 W1' W2 W2' : (⟨2, ![128, 128]⟩ : Shape).Idx → EReal} {b1 b1' b2 b2' : Fin 128 → EReal}
    (he : e = e') (hx : x = x') (ha : agg = agg') (h1 : W1 = W1') (hb1 : b1 = b1') (h2 : W2 = W2') (hb2 : b2 = b2') :
    mlp e x agg W1 b1 W2 b2 = mlp e' x' agg' W1' b1' W2' b2' := by
  subst he hx ha h1 hb1 h2 hb2; rfl

end Cert.Mlp

end
-- ==== Proof.Payload.lean ====
/-
  The kernel body's one stored value, read at an index.

  At row `p` and column `q` of a block of 5000 nodes the body stores `layer (layer h W₁ b₁) W₂ b₂ q` with
  `h l = (1 + ε) · x p l + agg p l` (`Cert.Mlp`): the change of float format before each product is the identity on the
  extended reals, each product into a zero accumulator is the plain sum over the contracted axis, and the two bias rows
  and the scalar `ε` are read at row `0` of their `[1, 128]` and `[1, 1]` blocks.
-/
import proofs.«403795_j5059471475173_2_alg».proof.Proof.Gen.KernelIdeal.Skeleton
import proofs.«403795_j5059471475173_2_alg».proof.Proof.Mlp
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The product's operand indices, axis by axis -/

theorem lhs_axis0 (i : S5000x128.Idx) (r : dot_S5000x128_S128x128_S5000x128_1_0_0_1_n_n.contr.Idx) :
    (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (r : dot_S5000x128_S128x128_S5000x128_1_0_0_1_n_n.contr.Idx) :
    (dot_S5000x128_S128x128_S5000x128_1_0_0_1_n_n.lhsIdx i r 1).val = (r ⟨0, by decide⟩).val :=
  dot_S5000x128_S128x128_S5000x128_1_0_0_1_n_n.lhsIdx_val_of_single rfl i r
theorem rhs_axis0 (i : S5000x128.Idx) (r : dot_S5000x128_S128x128_S5000x128_1_0_0_1_n_n.contr.Idx) :
    (dot_S5000x128_S128x128_S5000x128_1_0_0_1_n_n.rhsIdx i r 0).val = (r ⟨0, by decide⟩).val :=
  dot_S5000x128_S128x128_S5000x128_1_0_0_1_n_n.rhsIdx_val_of_single rfl i r
theorem rhs_axis1 (i : S5000x128.Idx) (r : dot_S5000x128_S128x128_S5000x128_1_0_0_1_n_n.contr.Idx) :
    (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block's rows times a weight matrix, into a zero accumulator, at `(p, q)`: the sum over the contracted axis. -/
theorem matmul_zero_apply {φ₁ φ₂ : FTy} (a : FVec Ideal S5000x128 φ₁) (w : FVec Ideal S128x128 φ₂) (p : Fin 5000) (q : Fin 128) :
    matmul dot_S5000x128_S128x128_S5000x128_1_0_0_1_n_n none a w (constant S5000x128 .f32 0x00000000#32) (ix2 p q)
      = ∑ k : Fin 128, a (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The small blocks broadcast over a block of rows -/

/-- A `[1, 128]` row broadcast over the 5000 rows, at `(p, q)`: the row's entry `q`. -/
theorem bcast_row_apply (v : FVec Ideal S1x128 .f32) (p : Fin 5000) (q : Fin 128) :
    broadcastTo S5000x128 v broadcasts_S1x128_S5000x128 (ix2 p q) = v (ix2 0 q) :=
  broadcastTo_apply v broadcasts_S1x128_S5000x128 (ix2 p q) (ix2 0 q) (fun a => by
    match a with
    | ⟨0, _⟩ => show (0 : Nat) = if (1 : Nat) = 1 then 0 else _; rw [if_pos rfl]
    | ⟨1, _⟩ => show q.val = if (128 : Nat) = 1 then 0 else q.val; rw [if_neg (by decide)])

/-- A `[1, 1]` scalar block broadcast over the block, at `(p, q)`: its one entry. -/
theorem bcast_scalar_apply (v : FVec Ideal S1x1 .f32) (p : Fin 5000) (q : Fin 128) :
    broadcastTo S5000x128 v broadcasts_S1x1_S5000x128 (ix2 p q) = v (ix2 0 0) :=
  broadcastTo_apply v broadcasts_S1x1_S5000x128 (ix2 p q) (ix2 0 0) (fun a => by
    match a with
    | ⟨0, _⟩ => show (0 : Nat) = if (1 : Nat) = 1 then 0 else _; rw [if_pos rfl]
    | ⟨1, _⟩ => show (0 : Nat) = if (1 : Nat) = 1 then 0 else _; rw [if_pos rfl])

/-! ## The stored value -/

/-- The body's stored value at `(p, q)` is the two layers of `Cert.Mlp` on the combined row `p`. -/
theorem pay_apply (v0 v1 : Vec Ideal S5000x128 .f32) (v3 : Vec Ideal S1x1 .f32) (v11 : Vec Ideal S128x128 .f32)
    (v14 : Vec Ideal S1x128 .f32) (v21 : Vec Ideal S128x128 .f32) (v24 : Vec Ideal S1x128 .f32) (p : Fin 5000) (q : Fin 128) :
    k0_pay1 v0 v1 v3 v11 v14 v21 v24 (ix2 p q)
      = Cert.Mlp.layer (Cert.Mlp.layer (fun l => (Cert.Mlp.one + v3 (ix2 0 0)) * v0 (ix2 p l) + v1 (ix2 p l)) v11 (fun k => v14 (ix2 0 k)))
          v21 (fun k => v24 (ix2 0 k)) q := by
  unfold k0_pay1
  simp only [shapeCast_self, maximumf_apply, addf_apply, mulf_apply, truncf_apply, broadcast_apply, matmul_zero_apply,
    bcast_row_apply, bcast_scalar_apply]
  rfl

end Cert.KernelIdeal.Body

end
-- ==== Proof.KernelArray.lean ====
/-
  The kernel's result array as ONE function of the arrays its region finds.

  The grid has ten points; point `t` fetches rows `5000 t … 5000 t + 4999` of `x` and of the aggregate, the whole of
  `ε`, the two weight matrices and the two bias rows, and writes back rows `5000 t … 5000 t + 4999` of the result. What
  it writes at `(p, q)` of its block is the two layers on the combined row `5000 t + p` (`Body.pay_apply`), which is
  the entry `(5000 t + p, q)` of `Cert.Mlp.mlp` of the whole arrays; the ten blocks tile the `[50000, 128]` array (row
  `r` is in block `r / 5000`), so the array ends holding `mlp` everywhere.
-/
import proofs.«403795_j5059471475173_2_alg».proof.Proof.Gen.KernelIdeal.Value
import proofs.«403795_j5059471475173_2_alg».proof.Proof.Payload
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays the region finds, at their literal types -/

abbrev xarr (c : Dev nD) : Vec Ideal S50000x128 .f32 := V m c main_arg0
abbrev aggarr (c : Dev nD) : Vec Ideal S50000x128 .f32 := V m c main_v7
abbrev epsarr (c : Dev nD) : Vec Ideal S1x1 .f32 := V m c main_v8
abbrev w1arr (c : Dev nD) : Vec Ideal S128x128 .f32 := V m c main_arg2
abbrev b1arr (c : Dev nD) : Vec Ideal S1x128 .f32 := V m c main_v9
abbrev w2arr (c : Dev nD) : Vec Ideal S128x128 .f32 := V m c main_arg4
abbrev b2arr (c : Dev nD) : Vec Ideal S1x128 .f32 := V m c main_v10

/-- The result array: the two layers on every node's combined row, over the arrays as the region finds them. -/
def result (c : Dev nD) : Vec Ideal S50000x128 .f32 :=
  Cert.Mlp.mlp (epsarr m c (ix2 0 0)) (xarr m c) (aggarr m c) (w1arr m c) (fun k => b1arr m c (ix2 0 k))
    (w2arr m c) (fun k => b2arr m c (ix2 0 k))

theorem hz : (![0, 0] : Fin 2 → Nat) = fun _ => 0 := funext fun a => by fin_cases a <;> rfl

/-- The index maps over the grid: the two row-blocked inputs and the output move with the point along the rows; the
    five small inputs stay at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_7.index t (0 : Fin 2) = t.val ∧ win0_7.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## Each input block, read as entries of its array

Each read is stated first for an arbitrary array in the window's place and then taken at the array the region finds. -/

/-- Point `t`'s block of `x` starts at row `5000 t`: its index `y` is the array's index `k` with `k₀ = 5000 t + y₀`. -/
theorem emb_row0 (t : Fin cfg0.N) (y : S5000x128.Idx) (k : S50000x128.Idx)
    (hk0 : (k 0).val = t.val * 5000 + (y 0).val) (hk1 : (k 1).val = (y 1).val) :
    ((cfg0.win 0).blk t).view.emb y = k := by
  obtain ⟨e0, e1, -⟩ := idx_facts t
  funext a; apply Fin.ext
  match a with
  | ⟨0, _⟩ => show win0_0.index t (0 : Fin 2) * 5000 + 1 * (y 0).val = (k 0).val; omega
  | ⟨1, _⟩ => show win0_0.index t (1 : Fin 2) * 128 + 1 * (y 1).val = (k 1).val; omega

/-- So that block of ANY array `A`, read at `y`, is `A` at `k`. -/
theorem read_row0 (A : Vec Ideal S50000x128 .f32) (t : Fin cfg0.N) (y : S5000x128.Idx) (k : S50000x128.Idx)
    (he : ((cfg0.win 0).blk t).view.emb y = k) :
    ((cfg0.win 0).blk t).view.read (Elt Ideal) A y = A k := by
  rw [View.read_apply, he]
  rfl

/-- Row `p` of point `t`'s block of `x` is row `5000 t + p` of `x`. -/
theorem xblk_apply (c : Dev nD) (t : Fin cfg0.N) (y : S5000x128.Idx) (k : S50000x128.Idx)
    (hk0 : (k 0).val = t.val * 5000 + (y 0).val) (hk1 : (k 1).val = (y 1).val) :
    (iblk m c 0 t : Vec Ideal S5000x128 .f32) y = xarr m c k :=
  read_row0 (V m c (Pipeline.arrRef spec0 0)) t y k (emb_row0 t y k hk0 hk1)

/-- Point `t`'s block of the aggregate starts at row `5000 t`: its index `y` is the array's index `k` with `k₀ = 5000 t + y₀`. -/
theorem emb_row1 (t : Fin cfg0.N) (y : S5000x128.Idx) (k : S50000x128.Idx)
    (hk0 : (k 0).val = t.val * 5000 + (y 0).val) (hk1 : (k 1).val = (y 1).val) :
    ((cfg0.win 1).blk t).view.emb y = k := by
  obtain ⟨-, -, e0, e1, -⟩ := idx_facts t
  funext a; apply Fin.ext
  match a with
  | ⟨0, _⟩ => show win0_1.index t (0 : Fin 2) * 5000 + 1 * (y 0).val = (k 0).val; omega
  | ⟨1, _⟩ => show win0_1.index t (1 : Fin 2) * 128 + 1 * (y 1).val = (k 1).val; omega

/-- So that block of ANY array `A`, read at `y`, is `A` at `k`. -/
theorem read_row1 (A : Vec Ideal S50000x128 .f32) (t : Fin cfg0.N) (y : S5000x128.Idx) (k : S50000x128.Idx)
    (he : ((cfg0.win 1).blk t).view.emb y = k) :
    ((cfg0.win 1).blk t).view.read (Elt Ideal) A y = A k := by
  rw [View.read_apply, he]
  rfl

/-- Row `p` of point `t`'s block of the aggregate is its row `5000 t + p`. -/
theorem aggblk_apply (c : Dev nD) (t : Fin cfg0.N) (y : S5000x128.Idx) (k : S50000x128.Idx)
    (hk0 : (k 0).val = t.val * 5000 + (y 0).val) (hk1 : (k 1).val = (y 1).val) :
    (iblk m c 1 t : Vec Ideal S5000x128 .f32) y = aggarr m c k :=
  read_row1 (V m c (Pipeline.arrRef spec0 1)) t y k (emb_row1 t y k hk0 hk1)

/-- The one block of `ε` is at block index `(0, 0)` and has the array's shape: a block index is the array's. -/
theorem emb_whole2 (t : Fin cfg0.N) (y : S1x1.Idx) : ((cfg0.win 2).blk t).view.emb y = y := by
  obtain ⟨-, -, -, -, -, -, e0, e1, -⟩ := idx_facts t
  funext a; apply Fin.ext
  match a with
  | ⟨0, _⟩ => show win0_2.index t (0 : Fin 2) * 1 + 1 * (y 0).val = (y 0).val; omega
  | ⟨1, _⟩ => show win0_2.index t (1 : Fin 2) * 1 + 1 * (y 1).val = (y 1).val; omega

/-- So that block of ANY array `A` is `A`. -/
theorem read_whole2 (A : Vec Ideal S1x1 .f32) (t : Fin cfg0.N) :
    ((cfg0.win 2).blk t).view.read (Elt Ideal) A = A := by
  funext y
  rw [View.read_apply, emb_whole2 t y]
  rfl

/-- The `ε` block is the whole `[1, 1]` array at every point. -/
theorem epsblk_eq (c : Dev nD) (t : Fin cfg0.N) : (iblk m c 2 t : Vec Ideal S1x1 .f32) = epsarr m c :=
  read_whole2 (V m c (Pipeline.arrRef spec0 2)) t

/-- The one block of the first weight matrix is at block index `(0, 0)` and has the array's shape: a block index is the array's. -/
theorem emb_whole3 (t : Fin cfg0.N) (y : S128x128.Idx) : ((cfg0.win 3).blk t).view.emb y = y := by
  obtain ⟨-, -, -, -, -, -, -, -, e0, e1, -⟩ := idx_facts t
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- So that block of ANY array `A` is `A`. -/
theorem read_whole3 (A : Vec Ideal S128x128 .f32) (t : Fin cfg0.N) :
    ((cfg0.win 3).blk t).view.read (Elt Ideal) A = A := by
  funext y
  rw [View.read_apply, emb_whole3 t y]
  rfl

/-- The first weight block is the whole matrix at every point. -/
theorem w1blk_eq (c : Dev nD) (t : Fin cfg0.N) : (iblk m c 3 t : Vec Ideal S128x128 .f32) = w1arr m c :=
  read_whole3 (V m c (Pipeline.arrRef spec0 3)) t

/-- The one block of the first bias row is at block index `(0, 0)` and has the array's shape: a block index is the array's. -/
theorem emb_whole4 (t : Fin cfg0.N) (y : S1x128.Idx) : ((cfg0.win 4).blk t).view.emb y = y := by
  obtain ⟨-, -, -, -, -, -, -, -, -, -, e0, e1, -⟩ := idx_facts t
  funext a; apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- So that block of ANY array `A` is `A`. -/
theorem read_whole4 (A : Vec Ideal S1x128 .f32) (t : Fin cfg0.N) :
    ((cfg0.win 4).blk t).view.read (Elt Ideal) A = A := by
  funext y
  rw [View.read_apply, emb_whole4 t y]
  rfl

/-- The first bias block is the whole row at every point. -/
theorem b1blk_eq (c : Dev nD) (t : Fin cfg0.N) : (iblk m c 4 t : Vec Ideal S1x128 .f32) = b1arr m c :=
  read_whole4 (V m c (Pipeline.arrRef spec0 4)) t

/-- The one block of the second weight matrix is at block index `(0, 0)` and has the array's shape: a block index is the array's. -/
theorem emb_whole5 (t : Fin cfg0.N) (y : S128x128.Idx) : ((cfg0.win 5).blk t).view.emb y = y := by
  obtain ⟨-, -, -, -, -, -, -, -, -, -, -, -, e0, e1, -⟩ := idx_facts t
  funext a; apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- So that block of ANY array `A` is `A`. -/
theorem read_whole5 (A : Vec Ideal S128x128 .f32) (t : Fin cfg0.N) :
    ((cfg0.win 5).blk t).view.read (Elt Ideal) A = A := by
  funext y
  rw [View.read_apply, emb_whole5 t y]
  rfl

/-- The second weight block is the whole matrix at every point. -/
theorem w2blk_eq (c : Dev nD) (t : Fin cfg0.N) : (iblk m c 5 t : Vec Ideal S128x128 .f32) = w2arr m c :=
  read_whole5 (V m c (Pipeline.arrRef spec0 5)) t

/-- The one block of the second bias row is at block index `(0, 0)` and has the array's shape: a block index is the array's. -/
theorem emb_whole6 (t : Fin cfg0.N) (y : S1x128.Idx) : ((cfg0.win 6).blk t).view.emb y = y := by
  obtain ⟨-, -, -, -, -, -, -, -, -, -, -, -, -, -, e0, e1⟩ := idx_facts t
  funext a; apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- So that block of ANY array `A` is `A`. -/
theorem read_whole6 (A : Vec Ideal S1x128 .f32) (t : Fin cfg0.N) :
    ((cfg0.win 6).blk t).view.read (Elt Ideal) A = A := by
  funext y
  rw [View.read_apply, emb_whole6 t y]
  rfl

/-- The second bias block is the whole row at every point. -/
theorem b2blk_eq (c : Dev nD) (t : Fin cfg0.N) : (iblk m c 6 t : Vec Ideal S1x128 .f32) = b2arr m c :=
  read_whole6 (V m c (Pipeline.arrRef spec0 6)) t

/-! ## What a point writes back -/

/-- `mlp` at row `r`, column `q`: the two layers on the combined row `r`. -/
theorem mlp_at (e : EReal) (X A : Vec Ideal S50000x128 .f32) (W1 : Vec Ideal S128x128 .f32) (b1 : Fin 128 → EReal)
    (W2 : Vec Ideal S128x128 .f32) (b2 : Fin 128 → EReal) (r : Fin 50000) (q : Fin 128) :
    Cert.Mlp.mlp e X A W1 b1 W2 b2 (ix2 r q) = Cert.Mlp.layer (Cert.Mlp.layer (Cert.Mlp.combine e X A r) W1 b1) W2 b2 q := rfl

/-- The body's value on blocks `v0`, `v1` that hold row `r` of two arrays `X`, `A` at their row `p`: at `(p, q)` it is
    the entry `(r, q)` of `mlp` of `X`, `A` and the small blocks. -/
theorem block_value (v0 v1 : Vec Ideal S5000x128 .f32) (v3 : Vec Ideal S1x1 .f32) (v11 : Vec Ideal S128x128 .f32)
    (v14 : Vec Ideal S1x128 .f32) (v21 : Vec Ideal S128x128 .f32) (v24 : Vec Ideal S1x128 .f32)
    (X A : Vec Ideal S50000x128 .f32) (p : Fin 5000) (q : Fin 128) (r : Fin 50000)
    (h0 : ∀ l : Fin 128, v0 (ix2 p l) = X (ix2 r l)) (h1 : ∀ l : Fin 128, v1 (ix2 p l) = A (ix2 r l)) :
    k0_pay1 v0 v1 v3 v11 v14 v21 v24 (ix2 p q)
      = Cert.Mlp.mlp (v3 (ix2 0 0)) X A v11 (fun k => v14 (ix2 0 k)) v21 (fun k => v24 (ix2 0 k)) (ix2 r q) := by
  have hrow : (fun l : Fin 128 => (Cert.Mlp.one + v3 (ix2 0 0)) * v0 (ix2 p l) + v1 (ix2 p l))
      = Cert.Mlp.combine (v3 (ix2 0 0)) X A r :=
    funext fun l => congrArg₂ (fun a b => (Cert.Mlp.one + v3 (ix2 0 0)) * a + b) (h0 l) (h1 l)
  exact ((Cert.KernelIdeal.Body.pay_apply v0 v1 v3 v11 v14 v21 v24 p q).trans
    (congrArg (fun h => Cert.Mlp.layer (Cert.Mlp.layer h v11 (fun k => v14 (ix2 0 k))) v21 (fun k => v24 (ix2 0 k)) q) hrow)).trans
    (mlp_at (v3 (ix2 0 0)) X A v11 (fun k => v14 (ix2 0 k)) v21 (fun k => v24 (ix2 0 k)) r q).symm

/-- WHAT POINT `t` WRITES BACK is block `t` of the result array. -/
theorem flushed_eq (c : Dev nD) (t : Fin cfg0.N) :
    (dats m 0 c).flushed 7 t = ((cfg0.win 7).blk t).view.read (Elt Ideal) (result m c) := by
  have hN : cfg0.N = 10 := N_0
  obtain ⟨-, -, -, -, e70, e71, -⟩ := idx_facts t
  rw [Cert.KernelIdeal.Value.flushed7]
  unfold out0_7
  rw [View.canon_unit_zero hz]
  simp only [View.ld_unit_zero (S := S5000x128) hz, View.ld_unit_zero (S := S1x1) hz, View.ld_unit_zero (S := S128x128) hz,
    View.ld_unit_zero (S := S1x128) hz]
  funext j
  have hj0 : (j 0).val < 5000 := (j 0).isLt
  have ht : t.val < 10 := hN ▸ t.isLt
  show k0_pay1 (iblk m c 0 t) (iblk m c 1 t) (iblk m c 2 t) (iblk m c 3 t) (iblk m c 4 t) (iblk m c 5 t) (iblk m c 6 t) j
    = result m c (((cfg0.win 7).blk t).view.emb j)
  rw [eq_ix2 j]
  refine (block_value (iblk m c 0 t) (iblk m c 1 t) (iblk m c 2 t) (iblk m c 3 t) (iblk m c 4 t) (iblk m c 5 t) (iblk m c 6 t)
    (xarr m c) (aggarr m c) (j 0) (j 1) ⟨t.val * 5000 + (j 0).val, by omega⟩
    (fun l => xblk_apply m c t (ix2 (j 0) l) (ix2 ⟨t.val * 5000 + (j 0).val, by omega⟩ l) rfl rfl)
    (fun l => aggblk_apply m c t (ix2 (j 0) l) (ix2 ⟨t.val * 5000 + (j 0).val, by omega⟩ l) rfl rfl)).trans ?_
  refine (congrFun (Cert.Mlp.mlp_congr (congrFun (epsblk_eq m c t) (ix2 0 0)) rfl rfl (w1blk_eq m c t)
    (funext fun k => congrFun (b1blk_eq m c t) (ix2 0 k)) (w2blk_eq m c t)
    (funext fun k => congrFun (b2blk_eq m c t) (ix2 0 k))) _).trans ?_
  show result m c _ = result m c _
  congr 1
  funext a; apply Fin.ext
  match a with
  | ⟨0, _⟩ => show t.val * 5000 + (j 0).val = win0_7.index t (0 : Fin 2) * 5000 + 1 * (j 0).val; omega
  | ⟨1, _⟩ => show (j 1).val = win0_7.index t (1 : Fin 2) * 128 + 1 * (j 1).val; omega

/-! ## The blocks tile the array -/

/-- An index of the array is in point `t`'s block iff each coordinate is in the block's range on its axis. -/
theorem mem_blk (t : Fin cfg0.N) (i : S50000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v11).slice (win0_7.rect t)).set ↔ _
  rw [View.set_slice_whole, Rect.mem_set_unit]
  exact Iff.rfl

/-- Row `r` is in the block of point `r / 5000`. -/
theorem cover (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  have hN : cfg0.N = 10 := N_0
  obtain ⟨-, -, -, -, e70, e71, -⟩ := idx_facts ⟨(i 0).val / 5000, by rw [hN]; omega⟩
  refine ⟨⟨(i 0).val / 5000, by rw [hN]; omega⟩, flush0_7 _, ?_⟩
  rw [mem_blk]
  intro a
  match a with
  | ⟨0, _⟩ =>
    show win0_7.index ⟨(i 0).val / 5000, _⟩ (0 : Fin 2) * 5000 ≤ (i 0).val ∧ (i 0).val < win0_7.index ⟨(i 0).val / 5000, _⟩ (0 : Fin 2) * 5000 + 5000
    rw [e70]; show (i 0).val / 5000 * 5000 ≤ (i 0).val ∧ (i 0).val < (i 0).val / 5000 * 5000 + 5000; omega
  | ⟨1, _⟩ =>
    show win0_7.index ⟨(i 0).val / 5000, _⟩ (1 : Fin 2) * 128 ≤ (i 1).val ∧ (i 1).val < win0_7.index ⟨(i 0).val / 5000, _⟩ (1 : Fin 2) * 128 + 128
    rw [e71]; omega

/-- THE ARRAY after the run is the result array. -/
theorem final (c : Dev nD) : (dats m 0 c).arrAt 7 cfg0.N = result m c :=
  (dats m 0 c).arrAt_eq_of_cover 7 (result m c) (fun t _ => flushed_eq m c t) cover

/-- The kernel's run, read: the result buffer ends at the result array, the arguments unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.Whole

end
-- ==== Proof.RefMlp.lean ====
/-
  The reference computes `Cert.Mlp.mlp`.

  Read one operation at a time, the reference's result at `(p, q)` is `max (∑ k, h₁ p k · W₂ k q + b₂ q) 0` with
  `h₁ p k = max (∑ l, h p l · W₁ l k + b₁ k) 0` and `h p l = (1 + ε) · x p l + agg p l`, where `agg` is its own
  scatter-add of gathered rows (never opened here): the two layers of `Cert.Mlp` on the combined row.
-/
import proofs.«403795_j5059471475173_2_alg».proof.Proof.Gen.ReferenceIdeal.Read
import proofs.«403795_j5059471475173_2_alg».proof.Proof.Mlp

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 : (⟨S50000x128, .f32⟩ : BufTy).Contents (Elt Ideal)) (x1 : (⟨S2x600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S_, .f32⟩ : BufTy).Contents (Elt Ideal))

/-! ## The index functions of the two products and the two biases, by coordinates -/

theorem lidx18 (p : Fin 50000) (k l : Fin 128) : lidx_main_v18 (ix2 p k) l = ix2 p l :=
  funext fun a => Fin.ext (by match a with | ⟨0, _⟩ => rfl | ⟨1, _⟩ => rfl)
theorem ridx18 (p : Fin 50000) (k l : Fin 128) : ridx_main_v18 (ix2 p k) l = ix2 l k :=
  funext fun a => Fin.ext (by match a with | ⟨0, _⟩ => rfl | ⟨1, _⟩ => rfl)
theorem lidx23 (p : Fin 50000) (q k : Fin 128) : lidx_main_v23 (ix2 p q) k = ix2 p k :=
  funext fun a => Fin.ext (by match a with | ⟨0, _⟩ => rfl | ⟨1, _⟩ => rfl)
theorem ridx23 (p : Fin 50000) (q k : Fin 128) : ridx_main_v23 (ix2 p q) k = ix2 k q :=
  funext fun a => Fin.ext (by match a with | ⟨0, _⟩ => rfl | ⟨1, _⟩ => rfl)
theorem bias1_idx (p : Fin 50000) (k : Fin 128) : idx_main_v19 (idx_main_v20 (ix2 p k)) = ix1 k :=
  funext fun a => Fin.ext (by match a with | ⟨0, _⟩ => rfl)
theorem bias2_idx (p : Fin 50000) (q : Fin 128) : idx_main_v24 (idx_main_v25 (ix2 p q)) = ix1 q :=
  funext fun a => Fin.ext (by match a with | ⟨0, _⟩ => rfl)

/-! ## The stages -/

/-- The combined row: `(1 + ε) · x + agg`. -/
theorem combined_apply (p : Fin 50000) (l : Fin 128) :
    val_main_v17 (F := Ideal) x0 x1 x6 (ix2 p l) = Cert.Mlp.combine (x6 ix0) x0 (val_main_v13 (F := Ideal) x0 x1) p l := by
  rw [val_main_v17_apply, val_main_v16_apply, val_main_v15_apply, val_main_v14_apply, val_main_cst_1_apply]
  rfl

/-- The first layer. -/
theorem hidden_apply (p : Fin 50000) (k : Fin 128) :
    val_main_v22 (F := Ideal) x0 x1 x2 x3 x6 (ix2 p k)
      = Cert.Mlp.layer (Cert.Mlp.combine (x6 ix0) x0 (val_main_v13 (F := Ideal) x0 x1) p) x2 (fun k => x3 (ix1 k)) k := by
  rw [val_main_v22_apply, val_main_v21_apply, val_main_v18_apply, val_main_v20_apply, val_main_v19_apply,
    val_main_call0_v0_apply, val_main_call0_cst_apply, bias1_idx]
  unfold Cert.Mlp.layer
  show max (_ + _) _ = max (_ + _) _
  refine congrArg₂ max (congrArg₂ (· + ·) (Finset.sum_congr rfl fun l _ => ?_) rfl) rfl
  rw [lidx18, ridx18, combined_apply]

/-- The second layer: the result. -/
theorem ref_eq :
    val_main_v27 (F := Ideal) x0 x1 x2 x3 x4 x5 x6
      = Cert.Mlp.mlp (x6 ix0) x0 (val_main_v13 (F := Ideal) x0 x1) x2 (fun k => x3 (ix1 k)) x4 (fun k => x5 (ix1 k)) := by
  funext i
  obtain ⟨p, q, rfl⟩ : ∃ (p : Fin 50000) (q : Fin 128), i = ix2 p q := ⟨i 0, i 1, eq_ix2 i⟩
  rw [val_main_v27_apply, val_main_v26_apply, val_main_v23_apply, val_main_v25_apply, val_main_v24_apply,
    val_main_call1_v0_apply, val_main_call1_cst_apply, bias2_idx]
  unfold Cert.Mlp.mlp
  show max (_ + _) _ = Cert.Mlp.layer _ _ _ q
  unfold Cert.Mlp.layer
  refine congrArg₂ max (congrArg₂ (· + ·) (Finset.sum_congr rfl fun k _ => ?_) rfl) rfl
  rw [lidx23, ridx23, hidden_apply]
  rfl

end Cert.ReferenceIdeal.RefValue

end
-- ==== Proof.SourceRange.lean ====
/-
  What the precondition says of the edge list: every entry of its first row — the source node of each edge — is an
  index into the 50000 rows of `x`, counted from the front (`0 … 49999`) or from the end (`-50000 … -1`).

  The precondition's last conjunct is `all ((src ≥ -50000) and (src < 50000))` over the first row `src` of the edge list;
  the whole predicate being one makes that conjunct one, the reduction by `and` being one makes every element one, and a
  signed comparison that is one orders its operands as integers.
-/
import proofs.«403795_j5059471475173_2_alg».proof.Pre_finite_inputs
import proofs.«403795_j5059471475173_2_alg».proof.Proof.Gen.Pre_finite_inputs
import Idealize.ShloMosaic.Lib.ReduceAll
import Idealize.ShloMosaic.Lib.ValueIdx

noncomputable section

namespace Cert.Pre_finite_inputs.Range

open Cert.Pre_finite_inputs Cert.Pre_finite_inputs.Facts Idealize.ShloMosaic Idealize.ShloMosaic.ValueIdx

/-- The first row of the edge list, as a vector of 600000 words: the source node of every edge. -/
def srcRow (e : IVec S2x600000 32) : IVec S600000 32 :=
  shapeCast S600000 (extractStridedSlice S1x600000 ![0, 0] e slices_S2x600000_S1x600000_0_0) shapeCasts_S1x600000_S600000

instance : Subsingleton S_.Idx := ⟨fun a b => funext fun d => d.elim0⟩

/-- Under the precondition every source node, read as a signed integer, lies in `[-50000, 50000)`. -/
theorem src_in_range {F : FTy → Type} [FloatOps F] (a0 : FVec F S50000x128 .f32) (a1 : IVec S2x600000 32)
    (a2 : FVec F S128x128 .f32) (a3 : FVec F S128 .f32) (a4 : FVec F S128x128 .f32) (a5 : FVec F S128 .f32)
    (a6 : FVec F S_ .f32) (h : fn (F := F) a0 a1 a2 a3 a4 a5 a6 = fun _ => 1#1) (j : S600000.Idx) :
    -50000 ≤ (srcRow a1 j).toInt ∧ (srcRow a1 j).toInt < 50000 := by
  have h0 := congrFun h ix0
  dsimp only [fn, fn_part1, fn_part2] at h0
  obtain ⟨-, h1⟩ := IntOp.andi_eq_one.1 (show IntOp.andi _ _ = 1#1 from h0)
  have h2 := Host.reduce_andi_all _ _ _ _ _ h1 j
  obtain ⟨hge, hlt⟩ := IntOp.andi_eq_one.1 (show IntOp.andi _ _ = 1#1 from h2)
  have hge' : (4294917296#32 : BitVec 32).toInt ≤ (srcRow a1 j).toInt :=
    IntOp.cmpi_sge.1 (show IntOp.cmpi .sge (srcRow a1 j) 4294917296#32 = 1#1 from hge)
  have hlt' : (srcRow a1 j).toInt < (50000#32 : BitVec 32).toInt :=
    IntOp.cmpi_slt.1 (show IntOp.cmpi .slt (srcRow a1 j) 50000#32 = 1#1 from hlt)
  rw [show (4294917296#32 : BitVec 32).toInt = -50000 from by decide] at hge'
  rw [show (50000#32 : BitVec 32).toInt = 50000 from by decide] at hlt'
  exact ⟨hge', hlt'⟩

end Cert.Pre_finite_inputs.Range

end
-- ==== Proof.Bridge.lean ====
/-
  The two results are one function of the arguments.

  The reference's result is `mlp` of its arguments and its own aggregate (`RefValue.ref_eq`); the kernel's result array is
  `mlp` of the arrays its region finds (`Whole.result`). Those arrays are the arguments themselves (`x`, the two weight
  matrices), reshapes of arguments read at the one row they have (`ε`, the two biases), and the kernel's aggregate: the
  same scatter-add, by destination, of the gathered source rows — the reference's aggregate term for term — once the
  precondition has ruled the fill value out (`Edges.taken_eq_gathered`).
-/
import proofs.«403795_j5059471475173_2_alg».proof.Defs
import proofs.«403795_j5059471475173_2_alg».proof.Proof.Edges
import proofs.«403795_j5059471475173_2_alg».proof.Proof.KernelArray
import proofs.«403795_j5059471475173_2_alg».proof.Proof.RefMlp
import proofs.«403795_j5059471475173_2_alg».proof.Proof.SourceRange

noncomputable section

namespace Cert.Bridge

open Idealize.ShloMosaic Idealize.ShloMosaic.TcCoe Idealize.SL.Sem Idealize.ShloMosaic.ValueIdx
open Cert.KernelIdeal Cert.KernelIdeal.Gen

/-- The reference's aggregate is the scatter-add of the gathered rows, the kernel's operations term for term. -/
theorem agg_eq (x0 : FVec Ideal S50000x128 .f32) (x1 : IVec S2x600000 32) :
    Cert.ReferenceIdeal.Read.val_main_v13 (F := Ideal) x0 x1
      = Cert.KernelIdeal.Edges.scattered (Cert.KernelIdeal.Edges.gathered x0 x1) x1 := by
  unfold Cert.ReferenceIdeal.Read.val_main_v13 Cert.ReferenceIdeal.Read.val_main_v12 Cert.ReferenceIdeal.Read.val_main_v11
    Cert.ReferenceIdeal.Read.val_main_v10 Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_c
    Cert.ReferenceIdeal.Read.val_main_c_0 Cert.ReferenceIdeal.Read.val_main_cst
  unfold Cert.KernelIdeal.Edges.scattered Cert.KernelIdeal.Edges.gathered Cert.KernelIdeal.Edges.startIdx
    Cert.KernelIdeal.Edges.wrapped Cert.KernelIdeal.Edges.srcRow Cert.KernelIdeal.Edges.dstRow
  rfl

/-- A scalar reshaped to `[1, 1]`, at its one entry. -/
theorem eps_read (y : FVec Ideal S_ .f32) : shapeCast S1x1 y shapeCasts_S_S1x1 (ix2 0 0) = y ix0 :=
  shapeCast_apply y shapeCasts_S_S1x1 (ix2 0 0) ix0 (by
    rw [Shape.rowMajor_val_two]
    show (Shape.rowMajorPi _ _).val = 0 * 1 + 0
    rw [Shape.rowMajorPi_zero])

/-- A vector of 128 reshaped to a `[1, 128]` row, at column `k`. -/
theorem bias_read (y : FVec Ideal S128 .f32) (k : Fin 128) : shapeCast S1x128 y shapeCasts_S128_S1x128 (ix2 0 k) = y (ix1 k) :=
  shapeCast_apply y shapeCasts_S128_S1x128 (ix2 0 k) (ix1 k) (by
    rw [Shape.rowMajor_val_two, Shape.rowMajor_val_one]
    show k.val = 0 * 128 + k.val
    omega)

variable (m : (ℓ : Loc nD τ sig) → Buf (Elt Ideal) ℓ)

/-- Under the precondition the kernel's result array is `mlp` of the ARGUMENTS and the reference's aggregate of them:
    the reference's last stage at the kernel's own arguments. -/
theorem result_eq (hpre : Cert.Pre_KernelIdeal m) (c : Dev nD) :
    Cert.ReferenceIdeal.Read.val_main_v27 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6))
      = Cert.KernelIdeal.Whole.result m c := by
  rw [Cert.ReferenceIdeal.RefValue.ref_eq]
  unfold Cert.KernelIdeal.Whole.result
  have hrange := Cert.Pre_finite_inputs.Range.src_in_range _ _ _ _ _ _ _ (hpre c)
  refine Cert.Mlp.mlp_congr ?_ ?_ ?_ ?_ ?_ ?_ ?_
  · show _ = (V m c main_v8 : S1x1.Idx → Elt Ideal .f32) (ix2 0 0)
    rw [Cert.KernelIdeal.Edges.V_eps m c, eps_read]
  · exact (V_main_arg0 m c).symm
  · show _ = (V m c main_v7 : S50000x128.Idx → Elt Ideal .f32)
    rw [Cert.KernelIdeal.Edges.V_agg m c, Cert.KernelIdeal.Edges.taken_eq_gathered _ _ hrange, agg_eq]
  · exact (V_main_arg2 m c).symm
  · funext k
    show _ = (V m c main_v9 : S1x128.Idx → Elt Ideal .f32) (ix2 0 k)
    rw [Cert.KernelIdeal.Edges.V_b1 m c, bias_read]
  · exact (V_main_arg4 m c).symm
  · funext k
    show _ = (V m c main_v10 : S1x128.Idx → Elt Ideal .f32) (ix2 0 k)
    rw [Cert.KernelIdeal.Edges.V_b2 m c, bias_read]

end Cert.Bridge

end
-- ==== Proof.lean ====
/-
  One graph-isomorphism layer: every node's features scaled by `1 + ε`, plus the sum of its neighbours' features over
  the edge list, through two dense layers with a rectifier after each,
      out = max (max (h · W₁ + b₁) 0 · W₂ + b₂) 0,    h = (1 + ε) · x + agg,    agg[dst e] += x[src e].
  The kernel forms `agg` on the host and runs the two layers in ten blocks of 5000 nodes, changing the float format before
  each product (the identity on the extended reals); the reference does all of it on whole arrays. Over the extended reals
  both results are the one function `Cert.Mlp.mlp` of the arguments and of the aggregate, and the aggregate is the same
  scatter-add of the same gathered rows — except that the kernel's gather replaces a row whose source index is out of
  range by a fill value where the reference's clamps the index. The precondition therefore asks, beside finite float
  inputs, that every source index address one of the 50000 rows (from the front or, negative, from the end); with that
  the fill value is never taken and the two aggregates are one term.

  Proof/Mlp.lean states the function; Proof/Payload.lean reads the kernel body's stored value at an index and
  Proof/KernelArray.lean joins the ten blocks into the result array; Proof/Edges.lean names the host operations before
  the region and shows the fill value is never taken in range, Proof/SourceRange.lean reads that range out of the
  precondition; Proof/RefMlp.lean reads the reference one operation at a time; Proof/Bridge.lean sets the two side by
  side. The three frames are the generated runs; the idealization rewrote nothing.
-/
import proofs.«403795_j5059471475173_2_alg».proof.Defs
import proofs.«403795_j5059471475173_2_alg».proof.Proof.Gen.Kernel
import proofs.«403795_j5059471475173_2_alg».proof.Proof.Gen.Kernel.Skeleton
import proofs.«403795_j5059471475173_2_alg».proof.Proof.Gen.Kernel.Launch
import proofs.«403795_j5059471475173_2_alg».proof.Proof.Gen.Kernel.Points
import proofs.«403795_j5059471475173_2_alg».proof.Proof.Gen.Kernel.Frame
import proofs.«403795_j5059471475173_2_alg».proof.Proof.Gen.KernelIdeal
import proofs.«403795_j5059471475173_2_alg».proof.Proof.Gen.KernelIdeal.Skeleton
import proofs.«403795_j5059471475173_2_alg».proof.Proof.Gen.KernelIdeal.Launch
import proofs.«403795_j5059471475173_2_alg».proof.Proof.Gen.KernelIdeal.Points
import proofs.«403795_j5059471475173_2_alg».proof.Proof.Gen.KernelIdeal.Frame
import proofs.«403795_j5059471475173_2_alg».proof.Proof.Gen.ReferenceIdeal
import proofs.«403795_j5059471475173_2_alg».proof.Proof.Gen.KernelIdeal.Value
import proofs.«403795_j5059471475173_2_alg».proof.Proof.Gen.ReferenceIdeal.Run
import proofs.«403795_j5059471475173_2_alg».proof.Proof.Gen.ReferenceIdeal.Read
import proofs.«403795_j5059471475173_2_alg».proof.Proof.Gen.Pre_finite_inputs
import proofs.«403795_j5059471475173_2_alg».proof.Proof.Bridge
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, with every source index in range, both programs end with the result array
    `mlp` of the arguments and their aggregate. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6, Cert.ReferenceIdeal.Read.val_main_v27_eq]
  exact Cert.Bridge.result_eq m hpre c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
